-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S1024 : Shape := ⟨1, ![1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x8x1024 .f32) (main_arg1 : FVec F S1024 .f32) (main_arg2 : FVec F S1024 .f32) (main_arg3 : FVec F S1024 .f32) (main_arg4 : FVec F S1024 .f32) (main_arg5 : FVec F S1024 .f32) (main_arg6 : FVec F S1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S4096x8x1024 : Shape := ⟨3, ![4096, 8, 1024]⟩
abbrev S1024 : Shape := ⟨1, ![1024]⟩
abbrev S32768x1024 : Shape := ⟨2, ![32768, 1024]⟩
abbrev S1x1024 : Shape := ⟨2, ![1, 1024]⟩
abbrev S6x1024 : Shape := ⟨2, ![6, 1024]⟩
abbrev S16x1x2048 : Shape := ⟨3, ![16, 1, 2048]⟩
abbrev S2048x1024 : Shape := ⟨2, ![2048, 1024]⟩
abbrev S1x1x2048 : Shape := ⟨3, ![1, 1, 2048]⟩
abbrev S6x2048 : Shape := ⟨2, ![6, 2048]⟩
abbrev S1x2048 : Shape := ⟨2, ![1, 2048]⟩
abbrev S4096x8 : Shape := ⟨2, ![4096, 8]⟩

abbrev nBuf : Space → Nat
  | .hbm => 17
  | .vmem => 5
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S6x1024, .f32⟩
  | .hbm, ⟨15, _⟩ => ⟨S16x1x2048, .f32⟩
  | .hbm, ⟨16, _⟩ => ⟨S4096x8, .f32⟩
  | .local _ .vmem, ⟨0, _⟩ => ⟨S2048x1024, .f32⟩
  | .local _ .vmem, ⟨1, _⟩ => ⟨S2048x1024, .f32⟩
  | .local _ .vmem, ⟨2, _⟩ => ⟨S6x1024, .f32⟩
  | .local _ .vmem, ⟨3, _⟩ => ⟨S1x1x2048, .f32⟩
  | .local _ .vmem, ⟨4, _⟩ => ⟨S1x1x2048, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x8x1024_S32768x1024 : S4096x8x1024.ShapeCasts S32768x1024
  bcast_S1024_S1x1024_1 : S1024.BroadcastsInDim S1x1024 (![1] : Fin 1 → Fin S1x1024.rank)
  concatenates_S1x1024_S1x1024_S1x1024_S1x1024_S1x1024_S1x1024_S6x1024_d0 : Shape.Concatenates [S1x1024, S1x1024, S1x1024, S1x1024, S1x1024, S1x1024] S6x1024 0
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S6x1024_S6x1024_0_0 : ∀ a, (![0, 0] : Fin 2 → Nat) a + S6x1024.size a ≤ S6x1024.size a
  h_S6x1024 : 0 < S6x1024.numel
  shapeCasts_S6x1024_S6x1024 : S6x1024.ShapeCasts S6x1024
  slices_S6x2048_o0_0_S1x2048 : S6x2048.Slices ![0, 0] S1x2048
  slices_S6x2048_o1_0_S1x2048 : S6x2048.Slices ![1, 0] S1x2048
  slices_S6x2048_o2_0_S1x2048 : S6x2048.Slices ![2, 0] S1x2048
  slices_S6x2048_o3_0_S1x2048 : S6x2048.Slices ![3, 0] S1x2048
  slices_S6x2048_o4_0_S1x2048 : S6x2048.Slices ![4, 0] S1x2048
  slices_S6x2048_o5_0_S1x2048 : S6x2048.Slices ![5, 0] S1x2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S16x1x2048_S4096x8 : S16x1x2048.ShapeCasts S4096x8
  dot_S6x1024_S2048x1024_S6x2048_1_1_0_0_n_n_wf : DotDims.WF S6x1024 S2048x1024 S6x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x1024.size a ≤ S6x1024.size a
  hwx0_1 : ∀ i : grid0.Coords, EltTy.bits .f32 = 32 ∨ (Rect.block (s := S6x1024) S6x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .f32 = 32 ∨ (Rect.block (s := S16x1x2048) S1x1x2048.size (cc0_transform_2 i) (hinb0_2 i)).WholeWords (EltTy.packing .f32)

variable [Facts₀]

def dot_S6x1024_S2048x1024_S6x2048_1_1_0_0_n_n : DotDims S6x1024 S2048x1024 S6x2048 where
  lhsContracting := [1]
  rhsContracting := [1]
  lhsNonContracting := [0]
  rhsNonContracting := [0]
  lhsBatch := []
  rhsBatch := []
  wf := dot_S6x1024_S2048x1024_S6x2048_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S1024 : Shape := ⟨1, ![1024]⟩
abbrev S1x1x1024 : Shape := ⟨3, ![1, 1, 1024]⟩
abbrev S_ : Shape := ⟨0, ![]⟩
abbrev S4096x8 : Shape := ⟨2, ![4096, 8]⟩

abbrev nBuf : Space → Nat
  | .hbm => 58
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1x1024, .f32⟩
  | .hbm, ⟨8, _⟩ => ⟨S4096x8x1024, .f32⟩
  | .hbm, ⟨9, _⟩ => ⟨S4096x8x1024, .f32⟩
  | .hbm, ⟨10, _⟩ => ⟨S_, .f32⟩
  | .hbm, ⟨11, _⟩ => ⟨S4096x8, .f32⟩
  | .hbm, ⟨12, _⟩ => ⟨S1x1x1024, .f32⟩
  | .hbm, ⟨13, _⟩ => ⟨S4096x8x1024, .f32⟩
  | .hbm, ⟨14, _⟩ => ⟨S4096x8x1024, .f32⟩
  | .hbm, ⟨15, _⟩ => ⟨S_, .f32⟩
  | .hbm, ⟨16, _⟩ => ⟨S4096x8, .f32⟩
  | .hbm, ⟨17, _⟩ => ⟨S1x1x1024, .f32⟩
  | .hbm, ⟨18, _⟩ => ⟨S4096x8x1024, .f32⟩
  | .hbm, ⟨19, _⟩ => ⟨S4096x8x1024, .f32⟩
  | .hbm, ⟨20, _⟩ => ⟨S_, .f32⟩
  | .hbm, ⟨21, _⟩ => ⟨S4096x8, .f32⟩
  | .hbm, ⟨22, _⟩ => ⟨S1x1x1024, .f32⟩
  | .hbm, ⟨23, _⟩ => ⟨S4096x8x1024, .f32⟩
  | .hbm, ⟨24, _⟩ => ⟨S4096x8x1024, .f32⟩
  | .hbm, ⟨25, _⟩ => ⟨S_, .f32⟩
  | .hbm, ⟨26, _⟩ => ⟨S4096x8, .f32⟩
  | .hbm, ⟨27, _⟩ => ⟨S1x1x1024, .f32⟩
  | .hbm, ⟨28, _⟩ => ⟨S4096x8x1024, .f32⟩
  | .hbm, ⟨29, _⟩ => ⟨S4096x8x1024, .f32⟩
  | .hbm, ⟨30, _⟩ => ⟨S_, .f32⟩
  | .hbm, ⟨31, _⟩ => ⟨S4096x8, .f32⟩
  | .hbm, ⟨32, _⟩ => ⟨S1x1x1024, .f32⟩
  | .hbm, ⟨33, _⟩ => ⟨S4096x8x1024, .f32⟩
  | .hbm, ⟨34, _⟩ => ⟨S4096x8x1024, .f32⟩
  | .hbm, ⟨35, _⟩ => ⟨S_, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S_, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S4096x8, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  reducesTo_S4096x8x1024_S4096x8_d2 : S4096x8x1024.ReducesTo [2] S4096x8
  h_S_ : 0 < S_.numel
  bcast_S_S4096x8 : S_.BroadcastsInDim S4096x8 (![] : Fin 0 → Fin S4096x8.rank)

variable [Facts₀]

class Facts : Prop extends Facts₀ where

variable [Facts]
-- ==== Proof.BitsFrame.lean ====
/-
  The frame of the kernel's program, at any float instance.

  @main is eight host lines (the [4096, 8, 1024] input reshaped to [32768, 1024]; each of the six weight vectors laid
  out as a [1, 1024] row; the six rows concatenated to one [6, 1024] table), one pipelined region over a grid of 16
  points, and one more host line (the [16, 1, 2048] result reshaped to [4096, 8]). At grid point t the region stages
  rows 2048·t … 2048·t + 2047 of the reshaped input, the whole table (fetched once, at the first point, and found in
  place afterwards), and writes block t of the result back. The body reads the two staged blocks, stores ONE value
  that covers its whole output block, and touches nothing else. Hence every weakly fair execution terminates without a
  fault, the result array ends as the sixteen blocks the body computed, and every other array — the seven arguments
  among them — ends as the host lines leave it; no host line writes an argument.
-/
import proofs.«115351_g67972152426924_cont_9to1_m_285_3_alg».proof.Proof.Gen.Kernel.Launch
import proofs.«115351_g67972152426924_cont_9to1_m_285_3_alg».proof.Proof.Gen.Kernel.Skeleton
import proofs.«115351_g67972152426924_cont_9to1_m_285_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region is entered with -/

/-- Core `c`'s arrays when the region is entered: the launch memory after the eight host lines. -/
abbrev entry0 (c : Dev nD) : Valuation τ sig (Elt F) := StableHlo.after (List.flatten [hostOps0]) (fun b => m (c, b))
/-- The same, read at one array. -/
abbrev entry (c : Dev nD) (b : Ref sig .tc) : Buf (Elt F) ((c : Thread nD τ).loc b) := entry0 m c (Proc.devRef .tc b)

/-- No host line allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the eight lines, the region, the last line: it reduces to the region continued by the last line, entered at
    `entry`. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The last line touches only arrays that outlive the region: the pipeline's three and those that bypass it. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem suffix_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- It writes the [4096, 8] result only, which is none of the pipeline's arrays. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- An array none of the eight lines writes is, at the region's entry, as launched. The lines write the reshaped
    input, the six rows and the table, each line its own result. -/
theorem entry_unwritten (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- An array that is neither one of the pipeline's three nor the last line's result ends, after the whole program, as
    it was at the region's entry. -/
theorem exit_unwritten (dats : (p : Fin _) → (c : Dev nD) → Dat τ (Elt F) Unit ℕ (UR sig nD τ) ℕ (cfgs p) c) (c : Dev nD)
    (b : Ref sig .tc) (h9 : b ≠ main_v9) (harr : ∀ w, Pipeline.arrRef spec0 w ≠ b) :
    Pipeline.afterTail₀ cfgs dats 0 (entry0 m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h9)),
    Pipeline.withArrays_of_ne _ c (entry0 m c) _ b harr]

/-! ## The staged blocks -/

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The input rows' staging buffer holds rows 2048·t … of the reshaped input when the body runs at point `t`. -/
theorem found_rows {c : Dev nD} (dat : Dat τ (Elt F) Unit ℕ (UR sig nD τ) ℕ cfg0 c) (hA : dat.A 0 = entry m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's staging buffer holds the whole table at every point: fetched at the first, and, its block index never
    moving, left in place by the body at every later one. -/
theorem found_table {c : Dev nD} (dat : Dat τ (Elt F) Unit ℕ (UR sig nD τ) ℕ cfg0 c) (hA : dat.A 1 = entry m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The three rectangles the body reads and writes: each staging buffer whole. -/
abbrev allRows : Rect S2048x1024 := Rect.unit (s := S2048x1024) ![0, 0] S2048x1024.size inb_S2048x1024_S2048x1024_0_0
abbrev allTable : Rect S6x1024 := Rect.unit (s := S6x1024) ![0, 0] S6x1024.size inb_S6x1024_S6x1024_0_0
abbrev allOut : Rect S1x1x2048 := Rect.unit (s := S1x1x2048) ![0, 0, 0] S1x1x2048.size inb_S1x1x2048_S1x1x2048_0_0_0

/-- What the body leaves in its output block, from the two input blocks: its one store. -/
def bodyOut (x : Vec F S2048x1024 .f32) (w : Vec F S6x1024 .f32) : Vec F S1x1x2048 .f32 :=
  View.canon [⟨allOut, k0_pay1 (View.ld x allRows) (View.ld w allTable)⟩]

/-- The one store covers the output block. -/
theorem out_covered (p : Vec F S1x1x2048 .f32) (y : S1x1x2048.Idx) :
    ∃ pc ∈ ([⟨allOut, p⟩] : List (View.Piece (Elt F) S1x1x2048 .f32)), y ∈ pc.1.set :=
  View.cover_of_tiled [⟨allOut, p⟩] S1x1x2048.size (by rfl) y

set_option maxHeartbeats 1000000 in
/-- The body on whole staging buffers — the inputs' at contents `x`, `w`, the output's at anything — runs to its end,
    leaves the inputs as they were and the output block at `bodyOut x w`. (It also loads the output block before storing
    over it; the loaded value is used nowhere.) -/
theorem body_runs (c : Dev nD) (E : Set ℕ) (i : grid0.Coords)
    (arg1 : Memref sig .tc .vmem S2048x1024 .f32) (harg1 : arg1.IsWhole) (arg2 : Memref sig .tc .vmem S6x1024 .f32) (harg2 : arg2.IsWhole)
    (arg3 : Memref sig .tc .vmem S1x1x2048 .f32) (harg3 : arg3.IsWhole)
    (x : Vec F S2048x1024 .f32) (w : Vec F S6x1024 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (bodyOut x w)) -∗ K ⟨⟩))
      ⊢ wp frame (wpE (defs₀ (F := F)) Variants.none c none) E (cc0__reward_kernel i arg1 harg1 arg2 harg2 arg3 harg3) K := by
  simp only [cc0__reward_kernel_eq_skeleton]; unfold cc0__reward_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The pipeline's proof data -/

/-- On core `c`: the three arrays as the region finds them; after the body at point `t` each input's buffer still at its
    block and the output's at `bodyOut` of the two; the region's invariant the scoped rest and the generator register,
    which the body never reads; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => iblk m c 0 t
    | ⟨1, _⟩ => iblk m c 1 t
    | ⟨2, _⟩ => bodyOut (iblk m c 0 t) (iblk m c 1 t)
  Φ _ := Pipeline.ΦA spec0 c
  q _ := fullShare
  owed _ := 0

theorem dats_A (c : Dev nD) (w : Fin cfg0.W) : (dats m 0 c).A w = entry m c (Pipeline.arrRef spec0 w) := by
  dsimp only [dats]
theorem after_rows (c : Dev nD) (t : Fin cfg0.N) : (dats m 0 c).after 0 t = iblk m c 0 t := by dsimp only [dats]
theorem after_table (c : Dev nD) (t : Fin cfg0.N) : (dats m 0 c).after 1 t = iblk m c 1 t := by dsimp only [dats]
theorem after_out (c : Dev nD) (t : Fin cfg0.N) : (dats m 0 c).after 2 t = bodyOut (iblk m c 0 t) (iblk m c 1 t) := by dsimp only [dats]

theorem before_rows (c : Dev nD) (t : Fin cfg0.N) (d) : (dats m 0 c).before 0 t d = iblk m c 0 t :=
  found_rows m (dats m 0 c) (dats_A m c 0) (after_rows m c) t d
theorem before_table (c : Dev nD) (t : Fin cfg0.N) (d) : (dats m 0 c).before 1 t d = iblk m c 1 t :=
  found_table m (dats m 0 c) (dats_A m c 1) (after_table m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_table]
  rw [show (dats m 0 c).Φ t.succ = (dats m 0 c).Φ t.castSucc from rfl,
    show (dats m 0 c).owesAt () t.succ = (dats m 0 c).owesAt () t.castSucc from rfl,
    after_rows, after_table, after_out]
  iintro ⟨HΦ, Ho, ⟨%d0, H0⟩, ⟨%d1, H1⟩, ⟨%d2, H2⟩⟩
  iapply (body_runs c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates without a fault; at the end each of the pipeline's arrays holds what
    the proof data computes for it and every other array what the last line leaves. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := suffix_sub) (hfresh := suffix_allocates_nothing) (hkeep := suffix_keeps_arrays)
    (hmain := main_around m Variants.none) (hA := dats_A m) (hΦ := fun _ _ => rfl)

/-- An argument array ends as launched: it is none of the pipeline's arrays and no host line writes it. -/
theorem arg_kept (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h9 : b ≠ main_v9) (harr : ∀ w, Pipeline.arrRef spec0 w ≠ b) :
    Pipeline.afterTail₀ cfgs (dats m) 0 (entry0 m) [hostOps1] c b = m ((c : Thread nD τ).loc b) :=
  (exit_unwritten m (dats m) c b h9 harr).trans (entry_unwritten m c b h0 h1 h2 h3 h4 h5 h6 h7)

/-- THE FRAME: the program runs to its end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (arg_kept m c main_arg0 (by decide) (by decide) (by decide) (by decide) (by decide) (by decide) (by decide) (by decide) (by decide) (by decide)),
     ((h c).2 main_arg1 (Pipeline.mem_restRefs_of main_arg1 (by decide) (by decide))).trans (arg_kept m c main_arg1 (by decide) (by decide) (by decide) (by decide) (by decide) (by decide) (by decide) (by decide) (by decide) (by decide)),
     ((h c).2 main_arg2 (Pipeline.mem_restRefs_of main_arg2 (by decide) (by decide))).trans (arg_kept m c main_arg2 (by decide) (by decide) (by decide) (by decide) (by decide) (by decide) (by decide) (by decide) (by decide) (by decide)),
     ((h c).2 main_arg3 (Pipeline.mem_restRefs_of main_arg3 (by decide) (by decide))).trans (arg_kept m c main_arg3 (by decide) (by decide) (by decide) (by decide) (by decide) (by decide) (by decide) (by decide) (by decide) (by decide)),
     ((h c).2 main_arg4 (Pipeline.mem_restRefs_of main_arg4 (by decide) (by decide))).trans (arg_kept m c main_arg4 (by decide) (by decide) (by decide) (by decide) (by decide) (by decide) (by decide) (by decide) (by decide) (by decide)),
     ((h c).2 main_arg5 (Pipeline.mem_restRefs_of main_arg5 (by decide) (by decide))).trans (arg_kept m c main_arg5 (by decide) (by decide) (by decide) (by decide) (by decide) (by decide) (by decide) (by decide) (by decide) (by decide)),
     ((h c).2 main_arg6 (Pipeline.mem_restRefs_of main_arg6 (by decide) (by decide))).trans (arg_kept m c main_arg6 (by decide) (by decide) (by decide) (by decide) (by decide) (by decide) (by decide) (by decide) (by decide) (by decide))⟩)
    (run_main m ρ)

end Cert.Kernel.Frame

end
-- ==== Proof.IdealFrame.lean ====
/-
  The frame of the kernel's program, at any float instance.

  @main is eight host lines (the [4096, 8, 1024] input reshaped to [32768, 1024]; each of the six weight vectors laid
  out as a [1, 1024] row; the six rows concatenated to one [6, 1024] table), one pipelined region over a grid of 16
  points, and one more host line (the [16, 1, 2048] result reshaped to [4096, 8]). At grid point t the region stages
  rows 2048·t … 2048·t + 2047 of the reshaped input, the whole table (fetched once, at the first point, and found in
  place afterwards), and writes block t of the result back. The body reads the two staged blocks, stores ONE value
  that covers its whole output block, and touches nothing else. Hence every weakly fair execution terminates without a
  fault, the result array ends as the sixteen blocks the body computed, and every other array — the seven arguments
  among them — ends as the host lines leave it; no host line writes an argument.
-/
import proofs.«115351_g67972152426924_cont_9to1_m_285_3_alg».proof.Proof.Gen.KernelIdeal.Launch
import proofs.«115351_g67972152426924_cont_9to1_m_285_3_alg».proof.Proof.Gen.KernelIdeal.Skeleton
import proofs.«115351_g67972152426924_cont_9to1_m_285_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region is entered with -/

/-- Core `c`'s arrays when the region is entered: the launch memory after the eight host lines. -/
abbrev entry0 (c : Dev nD) : Valuation τ sig (Elt F) := StableHlo.after (List.flatten [hostOps0]) (fun b => m (c, b))
/-- The same, read at one array. -/
abbrev entry (c : Dev nD) (b : Ref sig .tc) : Buf (Elt F) ((c : Thread nD τ).loc b) := entry0 m c (Proc.devRef .tc b)

/-- No host line allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the eight lines, the region, the last line: it reduces to the region continued by the last line, entered at
    `entry`. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The last line touches only arrays that outlive the region: the pipeline's three and those that bypass it. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem suffix_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- It writes the [4096, 8] result only, which is none of the pipeline's arrays. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- An array none of the eight lines writes is, at the region's entry, as launched. The lines write the reshaped
    input, the six rows and the table, each line its own result. -/
theorem entry_unwritten (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- An array that is neither one of the pipeline's three nor the last line's result ends, after the whole program, as
    it was at the region's entry. -/
theorem exit_unwritten (dats : (p : Fin _) → (c : Dev nD) → Dat τ (Elt F) Unit ℕ (UR sig nD τ) ℕ (cfgs p) c) (c : Dev nD)
    (b : Ref sig .tc) (h9 : b ≠ main_v9) (harr : ∀ w, Pipeline.arrRef spec0 w ≠ b) :
    Pipeline.afterTail₀ cfgs dats 0 (entry0 m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h9)),
    Pipeline.withArrays_of_ne _ c (entry0 m c) _ b harr]

/-! ## The staged blocks -/

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The input rows' staging buffer holds rows 2048·t … of the reshaped input when the body runs at point `t`. -/
theorem found_rows {c : Dev nD} (dat : Dat τ (Elt F) Unit ℕ (UR sig nD τ) ℕ cfg0 c) (hA : dat.A 0 = entry m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's staging buffer holds the whole table at every point: fetched at the first, and, its block index never
    moving, left in place by the body at every later one. -/
theorem found_table {c : Dev nD} (dat : Dat τ (Elt F) Unit ℕ (UR sig nD τ) ℕ cfg0 c) (hA : dat.A 1 = entry m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The three rectangles the body reads and writes: each staging buffer whole. -/
abbrev allRows : Rect S2048x1024 := Rect.unit (s := S2048x1024) ![0, 0] S2048x1024.size inb_S2048x1024_S2048x1024_0_0
abbrev allTable : Rect S6x1024 := Rect.unit (s := S6x1024) ![0, 0] S6x1024.size inb_S6x1024_S6x1024_0_0
abbrev allOut : Rect S1x1x2048 := Rect.unit (s := S1x1x2048) ![0, 0, 0] S1x1x2048.size inb_S1x1x2048_S1x1x2048_0_0_0

/-- What the body leaves in its output block, from the two input blocks: its one store. -/
def bodyOut (x : Vec F S2048x1024 .f32) (w : Vec F S6x1024 .f32) : Vec F S1x1x2048 .f32 :=
  View.canon [⟨allOut, k0_pay1 (View.ld x allRows) (View.ld w allTable)⟩]

/-- The one store covers the output block. -/
theorem out_covered (p : Vec F S1x1x2048 .f32) (y : S1x1x2048.Idx) :
    ∃ pc ∈ ([⟨allOut, p⟩] : List (View.Piece (Elt F) S1x1x2048 .f32)), y ∈ pc.1.set :=
  View.cover_of_tiled [⟨allOut, p⟩] S1x1x2048.size (by rfl) y

set_option maxHeartbeats 1000000 in
/-- The body on whole staging buffers — the inputs' at contents `x`, `w`, the output's at anything — runs to its end,
    leaves the inputs as they were and the output block at `bodyOut x w`. (It also loads the output block before storing
    over it; the loaded value is used nowhere.) -/
theorem body_runs (c : Dev nD) (E : Set ℕ) (i : grid0.Coords)
    (arg1 : Memref sig .tc .vmem S2048x1024 .f32) (harg1 : arg1.IsWhole) (arg2 : Memref sig .tc .vmem S6x1024 .f32) (harg2 : arg2.IsWhole)
    (arg3 : Memref sig .tc .vmem S1x1x2048 .f32) (harg3 : arg3.IsWhole)
    (x : Vec F S2048x1024 .f32) (w : Vec F S6x1024 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (bodyOut x w)) -∗ K ⟨⟩))
      ⊢ wp frame (wpE (defs₀ (F := F)) Variants.none c none) E (cc0__reward_kernel i arg1 harg1 arg2 harg2 arg3 harg3) K := by
  simp only [cc0__reward_kernel_eq_skeleton]; unfold cc0__reward_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The pipeline's proof data -/

/-- On core `c`: the three arrays as the region finds them; after the body at point `t` each input's buffer still at its
    block and the output's at `bodyOut` of the two; the region's invariant the scoped rest and the generator register,
    which the body never reads; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => iblk m c 0 t
    | ⟨1, _⟩ => iblk m c 1 t
    | ⟨2, _⟩ => bodyOut (iblk m c 0 t) (iblk m c 1 t)
  Φ _ := Pipeline.ΦA spec0 c
  q _ := fullShare
  owed _ := 0

theorem dats_A (c : Dev nD) (w : Fin cfg0.W) : (dats m 0 c).A w = entry m c (Pipeline.arrRef spec0 w) := by
  dsimp only [dats]
theorem after_rows (c : Dev nD) (t : Fin cfg0.N) : (dats m 0 c).after 0 t = iblk m c 0 t := by dsimp only [dats]
theorem after_table (c : Dev nD) (t : Fin cfg0.N) : (dats m 0 c).after 1 t = iblk m c 1 t := by dsimp only [dats]
theorem after_out (c : Dev nD) (t : Fin cfg0.N) : (dats m 0 c).after 2 t = bodyOut (iblk m c 0 t) (iblk m c 1 t) := by dsimp only [dats]

theorem before_rows (c : Dev nD) (t : Fin cfg0.N) (d) : (dats m 0 c).before 0 t d = iblk m c 0 t :=
  found_rows m (dats m 0 c) (dats_A m c 0) (after_rows m c) t d
theorem before_table (c : Dev nD) (t : Fin cfg0.N) (d) : (dats m 0 c).before 1 t d = iblk m c 1 t :=
  found_table m (dats m 0 c) (dats_A m c 1) (after_table m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_table]
  rw [show (dats m 0 c).Φ t.succ = (dats m 0 c).Φ t.castSucc from rfl,
    show (dats m 0 c).owesAt () t.succ = (dats m 0 c).owesAt () t.castSucc from rfl,
    after_rows, after_table, after_out]
  iintro ⟨HΦ, Ho, ⟨%d0, H0⟩, ⟨%d1, H1⟩, ⟨%d2, H2⟩⟩
  iapply (body_runs c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates without a fault; at the end each of the pipeline's arrays holds what
    the proof data computes for it and every other array what the last line leaves. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := suffix_sub) (hfresh := suffix_allocates_nothing) (hkeep := suffix_keeps_arrays)
    (hmain := main_around m Variants.none) (hA := dats_A m) (hΦ := fun _ _ => rfl)

/-- An argument array ends as launched: it is none of the pipeline's arrays and no host line writes it. -/
theorem arg_kept (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h9 : b ≠ main_v9) (harr : ∀ w, Pipeline.arrRef spec0 w ≠ b) :
    Pipeline.afterTail₀ cfgs (dats m) 0 (entry0 m) [hostOps1] c b = m ((c : Thread nD τ).loc b) :=
  (exit_unwritten m (dats m) c b h9 harr).trans (entry_unwritten m c b h0 h1 h2 h3 h4 h5 h6 h7)

/-- THE FRAME: the program runs to its end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (arg_kept m c main_arg0 (by decide) (by decide) (by decide) (by decide) (by decide) (by decide) (by decide) (by decide) (by decide) (by decide)),
     ((h c).2 main_arg1 (Pipeline.mem_restRefs_of main_arg1 (by decide) (by decide))).trans (arg_kept m c main_arg1 (by decide) (by decide) (by decide) (by decide) (by decide) (by decide) (by decide) (by decide) (by decide) (by decide)),
     ((h c).2 main_arg2 (Pipeline.mem_restRefs_of main_arg2 (by decide) (by decide))).trans (arg_kept m c main_arg2 (by decide) (by decide) (by decide) (by decide) (by decide) (by decide) (by decide) (by decide) (by decide) (by decide)),
     ((h c).2 main_arg3 (Pipeline.mem_restRefs_of main_arg3 (by decide) (by decide))).trans (arg_kept m c main_arg3 (by decide) (by decide) (by decide) (by decide) (by decide) (by decide) (by decide) (by decide) (by decide) (by decide)),
     ((h c).2 main_arg4 (Pipeline.mem_restRefs_of main_arg4 (by decide) (by decide))).trans (arg_kept m c main_arg4 (by decide) (by decide) (by decide) (by decide) (by decide) (by decide) (by decide) (by decide) (by decide) (by decide)),
     ((h c).2 main_arg5 (Pipeline.mem_restRefs_of main_arg5 (by decide) (by decide))).trans (arg_kept m c main_arg5 (by decide) (by decide) (by decide) (by decide) (by decide) (by decide) (by decide) (by decide) (by decide) (by decide)),
     ((h c).2 main_arg6 (Pipeline.mem_restRefs_of main_arg6 (by decide) (by decide))).trans (arg_kept m c main_arg6 (by decide) (by decide) (by decide) (by decide) (by decide) (by decide) (by decide) (by decide) (by decide) (by decide))⟩)
    (run_main m ρ)

end Cert.KernelIdeal.Frame

end
-- ==== Proof.Reward.lean ====
/-
  The specification both programs meet, on the extended reals.

  For a row `x` of 1024 entries and a weight vector `w` the weighted sum is `∑ k, w k * x k`. From six such sums of one
  row — against the agents' x, y and w and the samples' x, y and π — the reward is

      | π · ( log (π / w) + ½ · ( log (sx · sy / (kx · ky)) + (kx · sy + sx · ky) / (sx · sy) − 2 ) ) |,

  with the quotient, the logarithm and the absolute value those of the extended reals (|v| = max v (−v)), and ½ and 2
  the values of their float words. The result array holds, at (n, a), the reward of row (n, a) of the input.
-/
import Idealize.ShloMosaic.PureOps.Ideal
import Idealize.ShloMosaic.Lib.ValueIdx

noncomputable section

open scoped BigOperators

namespace Cert.Reward

open Idealize.ShloMosaic Idealize.ShloMosaic.ValueIdx

/-- The reward of the six weighted sums of one row. -/
def reward (sx sy ws kx ky pk : EReal) : EReal :=
  let v : EReal := pk * (Ideal.log (Ideal.div pk ws)
    + Ideal.ofBits .f32 0x3F000000#32 * (Ideal.log (Ideal.div (sx * sy) (kx * ky)) + Ideal.div (kx * sy + sx * ky) (sx * sy)
        - Ideal.ofBits .f32 0x40000000#32))
  max v (-v)

/-- The weighted sum of row (n, a) of a [4096, 8, 1024] array against a vector of 1024 weights. -/
def rowSum (x : (⟨3, ![4096, 8, 1024]⟩ : Shape).Idx → EReal) (w : (⟨1, ![1024]⟩ : Shape).Idx → EReal)
    (i : (⟨2, ![4096, 8]⟩ : Shape).Idx) : EReal :=
  ∑ k : Fin 1024, w (ix1 k) * x (ix3 (i 0) (i 1) k)

/-- The [4096, 8] result: at every row, the reward of its six weighted sums. -/
def result (x : (⟨3, ![4096, 8, 1024]⟩ : Shape).Idx → EReal) (ax ay aw kx ky kp : (⟨1, ![1024]⟩ : Shape).Idx → EReal) :
    (⟨2, ![4096, 8]⟩ : Shape).Idx → EReal :=
  fun i => reward (rowSum x ax i) (rowSum x ay i) (rowSum x aw i) (rowSum x kx i) (rowSum x ky i) (rowSum x kp i)

end Cert.Reward

end
-- ==== Proof.IdealBody.lean ====
/-
  The kernel body's arithmetic at the extended reals, one output element at a time.

  The body multiplies the [6, 1024] weight table into the transposed [2048, 1024] block of rows — entry (j, c) of the
  product is ∑ k, table (j, k) · rows (c, k), the accumulator being zero — cuts the product into its six rows, and applies
  the reward to them lane by lane. So output lane c of the block holds the reward of the six weighted sums of row c.
-/
import proofs.«115351_g67972152426924_cont_9to1_m_285_3_alg».proof.Proof.Gen.KernelIdeal.Skeleton
import proofs.«115351_g67972152426924_cont_9to1_m_285_3_alg».proof.Proof.Reward
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Cert.Reward
open Idealize.ShloMosaic Idealize.ShloMosaic.ValueIdx

variable {F : FTy → Type} [FloatOps F]

/-! ## The body as product, then epilogue -/

/-- Everything the body does to the [6, 2048] product: its six rows, the reward lane by lane, the result laid out as
    the [1, 1, 2048] output block. -/
def epilogue (s : FVec F S6x2048 .f32) : FVec F S1x1x2048 .f32 :=
  have sx : FVec F S1x2048 .f32 := extractStridedSlice S1x2048 ![0, 0] s slices_S6x2048_o0_0_S1x2048
  have sy : FVec F S1x2048 .f32 := extractStridedSlice S1x2048 ![1, 0] s slices_S6x2048_o1_0_S1x2048
  have ws : FVec F S1x2048 .f32 := extractStridedSlice S1x2048 ![2, 0] s slices_S6x2048_o2_0_S1x2048
  have kx : FVec F S1x2048 .f32 := extractStridedSlice S1x2048 ![3, 0] s slices_S6x2048_o3_0_S1x2048
  have ky : FVec F S1x2048 .f32 := extractStridedSlice S1x2048 ![4, 0] s slices_S6x2048_o4_0_S1x2048
  have pk : FVec F S1x2048 .f32 := extractStridedSlice S1x2048 ![5, 0] s slices_S6x2048_o5_0_S1x2048
  shapeCast S1x1x2048
    (absf (mulf pk (addf (log (divf pk ws))
      (mulf (broadcast S1x2048 (Scalar.ofBits .f32 0x3F000000#32))
        (subf (addf (log (divf (mulf sx sy) (mulf kx ky))) (divf (addf (mulf kx sy) (mulf sx ky)) (mulf sx sy)))
          (broadcast S1x2048 (Scalar.ofBits .f32 0x40000000#32)))))))
    shapeCasts_S1x2048_S1x1x2048

/-- The body's one stored value is the epilogue of the product of the table and the rows into zero. -/
theorem pay_eq (x : Vec F S2048x1024 .f32) (w : Vec F S6x1024 .f32) :
    k0_pay1 x w = epilogue (matmul dot_S6x1024_S2048x1024_S6x2048_1_1_0_0_n_n none
      (shapeCast S6x1024 w shapeCasts_S6x1024_S6x1024) (shapeCast S2048x1024 x shapeCasts_S2048x1024_S2048x1024)
      (constant S6x2048 .f32 0x00000000#32)) := rfl

/-! ## The epilogue at a lane -/

/-- Lane `c` of the output block is the reward of column `c` of the product's six rows. -/
theorem epilogue_at (s : FVec Ideal S6x2048 .f32) (c : Fin 2048) :
    epilogue (F := Ideal) s (ix3 0 0 c)
      = reward (s (ix2 0 c)) (s (ix2 1 c)) (s (ix2 2 c)) (s (ix2 3 c)) (s (ix2 4 c)) (s (ix2 5 c)) := by
  have e0 : extractStridedSlice S1x2048 ![0, 0] s slices_S6x2048_o0_0_S1x2048 (ix2 0 c) = s (ix2 0 c) :=
    extractStridedSlice_apply _ s _ _ _ (fun a => match a with | ⟨0, _⟩ => rfl | ⟨1, _⟩ => by show c.val = 0 + c.val; omega)
  have e1 : extractStridedSlice S1x2048 ![1, 0] s slices_S6x2048_o1_0_S1x2048 (ix2 0 c) = s (ix2 1 c) :=
    extractStridedSlice_apply _ s _ _ _ (fun a => match a with | ⟨0, _⟩ => rfl | ⟨1, _⟩ => by show c.val = 0 + c.val; omega)
  have e2 : extractStridedSlice S1x2048 ![2, 0] s slices_S6x2048_o2_0_S1x2048 (ix2 0 c) = s (ix2 2 c) :=
    extractStridedSlice_apply _ s _ _ _ (fun a => match a with | ⟨0, _⟩ => rfl | ⟨1, _⟩ => by show c.val = 0 + c.val; omega)
  have e3 : extractStridedSlice S1x2048 ![3, 0] s slices_S6x2048_o3_0_S1x2048 (ix2 0 c) = s (ix2 3 c) :=
    extractStridedSlice_apply _ s _ _ _ (fun a => match a with | ⟨0, _⟩ => rfl | ⟨1, _⟩ => by show c.val = 0 + c.val; omega)
  have e4 : extractStridedSlice S1x2048 ![4, 0] s slices_S6x2048_o4_0_S1x2048 (ix2 0 c) = s (ix2 4 c) :=
    extractStridedSlice_apply _ s _ _ _ (fun a => match a with | ⟨0, _⟩ => rfl | ⟨1, _⟩ => by show c.val = 0 + c.val; omega)
  have e5 : extractStridedSlice S1x2048 ![5, 0] s slices_S6x2048_o5_0_S1x2048 (ix2 0 c) = s (ix2 5 c) :=
    extractStridedSlice_apply _ s _ _ _ (fun a => match a with | ⟨0, _⟩ => rfl | ⟨1, _⟩ => by show c.val = 0 + c.val; omega)
  unfold epilogue
  refine (shapeCast_apply _ shapeCasts_S1x2048_S1x1x2048 (ix3 0 0 c) (ix2 0 c) ?_).trans ?_
  · rw [Shape.rowMajor_val_two, Shape.rowMajor_val_three]
    show (0 : Nat) * 2048 + c.val = ((0 : Nat) * 1 + 0) * 2048 + c.val
    omega
  show reward (extractStridedSlice S1x2048 ![0, 0] s slices_S6x2048_o0_0_S1x2048 (ix2 0 c))
      (extractStridedSlice S1x2048 ![1, 0] s slices_S6x2048_o1_0_S1x2048 (ix2 0 c))
      (extractStridedSlice S1x2048 ![2, 0] s slices_S6x2048_o2_0_S1x2048 (ix2 0 c))
      (extractStridedSlice S1x2048 ![3, 0] s slices_S6x2048_o3_0_S1x2048 (ix2 0 c))
      (extractStridedSlice S1x2048 ![4, 0] s slices_S6x2048_o4_0_S1x2048 (ix2 0 c))
      (extractStridedSlice S1x2048 ![5, 0] s slices_S6x2048_o5_0_S1x2048 (ix2 0 c)) = _
  rw [e0, e1, e2, e3, e4, e5]

/-! ## The product at an entry -/

theorem lhs_axis0 (i : S6x2048.Idx) (q : dot_S6x1024_S2048x1024_S6x2048_1_1_0_0_n_n.contr.Idx) :
    (dot_S6x1024_S2048x1024_S6x2048_1_1_0_0_n_n.lhsIdx i q 0).val = (i 0).val := by
  unfold DotDims.lhsIdx
  rw [dif_neg (show ¬(0 : Fin S6x1024.rank) ∈ dot_S6x1024_S2048x1024_S6x2048_1_1_0_0_n_n.lhsBatch by decide),
    dif_pos (show (0 : Fin S6x1024.rank) ∈ dot_S6x1024_S2048x1024_S6x2048_1_1_0_0_n_n.lhsNonContracting by decide)]
  rfl
theorem lhs_axis1 (i : S6x2048.Idx) (q : dot_S6x1024_S2048x1024_S6x2048_1_1_0_0_n_n.contr.Idx) :
    (dot_S6x1024_S2048x1024_S6x2048_1_1_0_0_n_n.lhsIdx i q 1).val = (q ⟨0, by decide⟩).val :=
  dot_S6x1024_S2048x1024_S6x2048_1_1_0_0_n_n.lhsIdx_val_of_single rfl i q
theorem rhs_axis0 (i : S6x2048.Idx) (q : dot_S6x1024_S2048x1024_S6x2048_1_1_0_0_n_n.contr.Idx) :
    (dot_S6x1024_S2048x1024_S6x2048_1_1_0_0_n_n.rhsIdx i q 0).val = (i 1).val := by
  unfold DotDims.rhsIdx
  rw [dif_neg (show ¬(0 : Fin S2048x1024.rank) ∈ dot_S6x1024_S2048x1024_S6x2048_1_1_0_0_n_n.rhsBatch by decide),
    dif_pos (show (0 : Fin S2048x1024.rank) ∈ dot_S6x1024_S2048x1024_S6x2048_1_1_0_0_n_n.rhsNonContracting by decide)]
  rfl
theorem rhs_axis1 (i : S6x2048.Idx) (q : dot_S6x1024_S2048x1024_S6x2048_1_1_0_0_n_n.contr.Idx) :
    (dot_S6x1024_S2048x1024_S6x2048_1_1_0_0_n_n.rhsIdx i q 1).val = (q ⟨0, by decide⟩).val :=
  dot_S6x1024_S2048x1024_S6x2048_1_1_0_0_n_n.rhsIdx_val_of_single rfl i q

/-- Entry (j, c) of the table times the transposed rows, into zero, is the sum over the 1024 columns of table (j, k) · rows (c, k). -/
theorem product_at (w : FVec Ideal S6x1024 .f32) (x : FVec Ideal S2048x1024 .f32) (j : Fin 6) (c : Fin 2048) :
    matmul dot_S6x1024_S2048x1024_S6x2048_1_1_0_0_n_n none w x (constant S6x2048 .f32 0x00000000#32) (ix2 j c)
      = ∑ k : Fin 1024, w (ix2 j k) * x (ix2 c k) := by
  show FloatOps.matmul dot_S6x1024_S2048x1024_S6x2048_1_1_0_0_n_n none w x (constant S6x2048 .f32 0x00000000#32) (ix2 j c) = _
  rw [Ideal.matmul_constant_zero_apply, ← Equiv.sum_comp (ValueIdx.contrEquiv1 dot_S6x1024_S2048x1024_S6x2048_1_1_0_0_n_n 1024 rfl rfl).symm]
  refine Finset.sum_congr rfl fun k _ => ?_
  have hk := ValueIdx.contrEquiv1_symm_val dot_S6x1024_S2048x1024_S6x2048_1_1_0_0_n_n 1024 rfl rfl k
  have el : dot_S6x1024_S2048x1024_S6x2048_1_1_0_0_n_n.lhsIdx (ix2 j c) ((ValueIdx.contrEquiv1 dot_S6x1024_S2048x1024_S6x2048_1_1_0_0_n_n 1024 rfl rfl).symm k) = ix2 j k :=
    funext fun a => Fin.ext (by
      match a with
      | ⟨0, _⟩ => exact lhs_axis0 _ _
      | ⟨1, _⟩ => exact (lhs_axis1 _ _).trans hk)
  have er : dot_S6x1024_S2048x1024_S6x2048_1_1_0_0_n_n.rhsIdx (ix2 j c) ((ValueIdx.contrEquiv1 dot_S6x1024_S2048x1024_S6x2048_1_1_0_0_n_n 1024 rfl rfl).symm k) = ix2 c k :=
    funext fun a => Fin.ext (by
      match a with
      | ⟨0, _⟩ => exact rhs_axis0 _ _
      | ⟨1, _⟩ => exact (rhs_axis1 _ _).trans hk)
  rw [el, er]

/-! ## The body's stored value at a lane -/

/-- Lane `c` of what the body stores is the reward of the six weighted sums of row `c` of its block of rows, the weights the
    six rows of the table. -/
theorem payload_at (x : Vec Ideal S2048x1024 .f32) (w : Vec Ideal S6x1024 .f32) (c : Fin 2048) :
    k0_pay1 (F := Ideal) x w (ix3 0 0 c)
      = reward (∑ k : Fin 1024, w (ix2 0 k) * x (ix2 c k)) (∑ k : Fin 1024, w (ix2 1 k) * x (ix2 c k))
          (∑ k : Fin 1024, w (ix2 2 k) * x (ix2 c k)) (∑ k : Fin 1024, w (ix2 3 k) * x (ix2 c k))
          (∑ k : Fin 1024, w (ix2 4 k) * x (ix2 c k)) (∑ k : Fin 1024, w (ix2 5 k) * x (ix2 c k)) := by
  rw [pay_eq, epilogue_at, shapeCast_self, shapeCast_self]
  rw [product_at, product_at, product_at, product_at, product_at, product_at]

end Cert.KernelIdeal.Body

end
-- ==== Proof.LibNary6.lean ====
/-
  A host operation over SIX operands (a concatenation of six arrays), read at its own result: its function applied to the
  six operands' contents, each taken at its own array. Stated with the operands as a literal family of six, so that each
  operand's contents can be read further, one array at a time; the library has this statement for four operands.
-/
import Idealize.ShloMosaic.Lib.StableHlo.Run

noncomputable section

namespace Idealize.ShloMosaic.StableHlo

variable {τ : Topo} {sig : RefSig} {Val : EltTy → Type}

/-- The result of a six-operand host operation is its function at the operands' contents, listed operand by operand:
    `Fin.cons (F ↑x₀) (Fin.cons (F ↑x₁) …)` in place of `fun k => F ↑(![x₀, …, x₅] k)`. -/
theorem nary6_result {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

end Idealize.ShloMosaic.StableHlo

end
-- ==== Proof.IdealValue.lean ====
/-
  What the kernel's program leaves in its result, at the extended reals.

  The region writes block t of the [16, 1, 2048] array from rows 2048·t … 2048·t + 2047 of the reshaped input and the whole
  table; lane c of block t is the reward of the six sums ∑ k, table (j, k) · input (2048·t + c, k). The sixteen blocks tile
  the array, so after the run entry (b, 0, c) holds the reward of row 2048·b + c. The last host line reshapes it to
  [4096, 8]: entry (n, a) is the one with the same row-major position, row 8·n + a. The reshaped input's row 8·n + a is
  row (n, a) of the input, and row j of the table is the j-th weight vector; so the result is the specification's.
-/
import proofs.«115351_g67972152426924_cont_9to1_m_285_3_alg».proof.Proof.IdealFrame
import proofs.«115351_g67972152426924_cont_9to1_m_285_3_alg».proof.Proof.IdealBody
import proofs.«115351_g67972152426924_cont_9to1_m_285_3_alg».proof.Proof.Reward
import Idealize.ShloMosaic.Lib.Pipeline.Value
import Idealize.ShloMosaic.Lib.ValueIdx
import Idealize.ShloMosaic.Lib.StableHlo.Run
import proofs.«115351_g67972152426924_cont_9to1_m_285_3_alg».proof.Proof.LibNary6

set_option maxRecDepth 16384

noncomputable section

open scoped BigOperators

namespace Cert.KernelIdeal.Arr

open Cert.KernelIdeal Cert.KernelIdeal.Gen Cert.KernelIdeal.Frame Cert.KernelIdeal.Body Cert.Reward
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The two input arrays and their blocks, at their literal types -/

/-- The reshaped input, [32768, 1024], as the region finds it. -/
abbrev rowsArr (c : Dev nD) : FVec Ideal S32768x1024 .f32 := entry m c main_v0
/-- The table, [6, 1024], as the region finds it. -/
abbrev tableArr (c : Dev nD) : FVec Ideal S6x1024 .f32 := entry m c main_v7
/-- The block of rows staged at point `t`. -/
abbrev rowsBlk (c : Dev nD) (t : Fin cfg0.N) : Vec Ideal S2048x1024 .f32 := iblk m c 0 t
/-- The table as staged at point `t`. -/
abbrev tableBlk (c : Dev nD) (t : Fin cfg0.N) : Vec Ideal S6x1024 .f32 := iblk m c 1 t

/-- The printed index maps over the grid: the rows' and the result's block index is the point, every other is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 16 := lt_of_lt_of_eq t.isLt N_0

/-- Entry (p, k) of the block of rows at point `t` is entry (2048·t + p, k) of the reshaped input. -/
theorem rows_block (c : Dev nD) (t : Fin cfg0.N) (p : Fin 2048) (k : Fin 1024) (r : Fin 32768) (hr : r.val = t.val * 2048 + p.val) :
    rowsBlk m c t (ix2 p k) = rowsArr m c (ix2 r k) := by
  obtain ⟨e0, e1, -⟩ := index_facts t
  show entry m c main_v0 (((cfg0.win 0).blk t).view.emb (ix2 p k)) = entry m c main_v0 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- The staged table is the table. -/
theorem table_block (c : Dev nD) (t : Fin cfg0.N) (j : Fin 6) (k : Fin 1024) :
    tableBlk m c t (ix2 j k) = tableArr m c (ix2 j k) := by
  obtain ⟨-, -, e2, e3, -⟩ := index_facts t
  show entry m c main_v7 (((cfg0.win 1).blk t).view.emb (ix2 j k)) = entry m c main_v7 (ix2 j k)
  refine congrArg _ (funext fun a => Fin.ext ?_)
  match a with
  | ⟨0, _⟩ => show win0_1.index t (0 : Fin 2) * 6 + 1 * j.val = j.val; omega
  | ⟨1, _⟩ => show win0_1.index t (1 : Fin 2) * 1024 + 1 * k.val = k.val; omega

/-! ## The result array as one function of the two input arrays -/

/-- The weighted sum of row `r` of the reshaped input against row `j` of the table. -/
def tsum (X : FVec Ideal S32768x1024 .f32) (Wt : FVec Ideal S6x1024 .f32) (j : Fin 6) (r : Fin 32768) : EReal :=
  ∑ k : Fin 1024, Wt (ix2 j k) * X (ix2 r k)

/-- The row of the reshaped input that entry (b, 0, c) of the [16, 1, 2048] array speaks of: 2048·b + c. -/
def rowOf (y : S16x1x2048.Idx) : Fin 32768 :=
  ⟨(y 0).val * 2048 + (y 2).val, by have h0 : (y 0).val < 16 := (y 0).isLt; have h2 : (y 2).val < 2048 := (y 2).isLt; omega⟩

/-- The [16, 1, 2048] array after the region: at every entry the reward of its row's six sums. -/
def blocksResult (X : FVec Ideal S32768x1024 .f32) (Wt : FVec Ideal S6x1024 .f32) : S16x1x2048.Idx → EReal := fun y =>
  reward (tsum X Wt 0 (rowOf y)) (tsum X Wt 1 (rowOf y)) (tsum X Wt 2 (rowOf y)) (tsum X Wt 3 (rowOf y)) (tsum X Wt 4 (rowOf y)) (tsum X Wt 5 (rowOf y))

/-- A sum over the staged blocks at point `t` is the sum over the arrays, at the row the block's row sits at. -/
theorem block_sum (c : Dev nD) (t : Fin cfg0.N) (j : Fin 6) (p : Fin 2048) (r : Fin 32768) (hr : r.val = t.val * 2048 + p.val) :
    (∑ k : Fin 1024, tableBlk m c t (ix2 j k) * rowsBlk m c t (ix2 p k)) = tsum (rowsArr m c) (tableArr m c) j r := by
  unfold tsum
  refine Finset.sum_congr rfl fun k _ => ?_
  rw [table_block m c t j k, rows_block m c t p k r hr]

theorem zeros2 : (![0, 0] : Fin 2 → Nat) = fun _ => 0 := funext fun a => by fin_cases a <;> rfl
theorem zeros3 : (![0, 0, 0] : Fin 3 → Nat) = fun _ => 0 := funext fun a => by fin_cases a <;> rfl

/-- WHAT POINT `t` WRITES BACK is block `t` of `blocksResult` of the two arrays as the region finds them. -/
theorem flushed_eq (c : Dev nD) (t : Fin cfg0.N) :
    (dats m 0 c).flushed 2 t = ((cfg0.win 2).blk t).view.read (Elt Ideal) (blocksResult (rowsArr m c) (tableArr m c)) := by
  show (cfg0.win 2).cut (grid0.coords t) ((dats m 0 c).after 2 t) = _
  rw [after_out]
  unfold bodyOut
  rw [View.canon_unit_zero zeros3]
  simp only [View.ld_unit_zero (S := S2048x1024) zeros2, View.ld_unit_zero (S := S6x1024) zeros2]
  obtain ⟨-, -, -, -, e4, e5, e6⟩ := index_facts t
  funext y
  obtain ⟨y0, y1, y2, rfl⟩ : ∃ (a : Fin 1) (b : Fin 1) (d : Fin 2048), y = ix3 a b d := ⟨y 0, y 1, y 2, eq_ix3 y⟩
  obtain rfl : y0 = 0 := Subsingleton.elim _ _
  obtain rfl : y1 = 0 := Subsingleton.elim _ _
  have hrow : (rowOf (((cfg0.win 2).blk t).view.emb (ix3 0 0 y2))).val = t.val * 2048 + y2.val := by
    show (win0_2.index t (0 : Fin 3) * 1 + 1 * 0) * 2048 + (win0_2.index t (2 : Fin 3) * 2048 + 1 * y2.val) = _
    omega
  show k0_pay1 (F := Ideal) (rowsBlk m c t) (tableBlk m c t) (ix3 0 0 y2)
    = blocksResult (rowsArr m c) (tableArr m c) (((cfg0.win 2).blk t).view.emb (ix3 0 0 y2))
  refine (payload_at (rowsBlk m c t) (tableBlk m c t) y2).trans ?_
  unfold blocksResult
  rw [block_sum m c t 0 y2 _ hrow, block_sum m c t 1 y2 _ hrow, block_sum m c t 2 y2 _ hrow,
    block_sum m c t 3 y2 _ hrow, block_sum m c t 4 y2 _ hrow, block_sum m c t 5 y2 _ hrow]

/-- An entry of the array is in point `t`'s block iff each coordinate is in the block's range on its axis. -/
theorem mem_block (t : Fin cfg0.N) (i : S16x1x2048.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v8).slice (win0_2.rect t)).set ↔ _
  rw [View.set_slice_whole, Rect.mem_set_unit]
  exact Iff.rfl

/-- Every entry (b, 0, c) is in the block of point b. -/
theorem covered (i : S16x1x2048.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 2048 := (i 2).isLt
  refine ⟨⟨(i 0).val, by rw [show cfg0.N = grid0.N from rfl, N_0]; exact h0⟩, flush0_2 _, ?_⟩
  obtain ⟨-, -, -, -, e4, e5, e6⟩ := index_facts ⟨(i 0).val, by rw [show cfg0.N = grid0.N from rfl, N_0]; exact h0⟩
  rw [mem_block]
  intro a
  match a with
  | ⟨0, _⟩ => show win0_2.index _ (0 : Fin 3) * 1 ≤ (i 0).val ∧ (i 0).val < win0_2.index _ (0 : Fin 3) * 1 + 1; rw [e4]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [e5]; omega
  | ⟨2, _⟩ => show win0_2.index _ (2 : Fin 3) * 2048 ≤ (i 2).val ∧ (i 2).val < win0_2.index _ (2 : Fin 3) * 2048 + 2048; rw [e6]; omega

/-- THE ARRAY after the region: `blocksResult` of the reshaped input and the table. -/
theorem final (c : Dev nD) : (dats m 0 c).arrAt 2 cfg0.N = blocksResult (rowsArr m c) (tableArr m c) :=
  (dats m 0 c).arrAt_eq_of_cover 2 _ (fun t _ => flushed_eq m c t) (covered)

/-! ## The two input arrays, and the result, in terms of the program's arguments -/

/-- The reshaped input is the [4096, 8, 1024] argument read row-major as [32768, 1024]. -/
theorem rows_eq (c : Dev nD) :
    rowsArr m c = shapeCast S32768x1024 (m ((c : Thread nD τ).loc main_arg0)) shapeCasts_S4096x8x1024_S32768x1024 := by
  show StableHlo.after hostOps0 (fun b => m (c, b)) (Proc.devRef .tc main_v0) = _
  after_results
  rfl

/-- One weight vector laid out as a [1, 1024] row. -/
abbrev asRow (v : (⟨S1024, .f32⟩ : BufTy).Contents (Elt Ideal)) : (⟨S1x1024, .f32⟩ : BufTy).Contents (Elt Ideal) :=
  broadcastInDim S1x1024 ![1] bcast_S1024_S1x1024_1 v

/-- The table is the six weight vectors, each a row, stacked in argument order. -/
theorem table_eq (c : Dev nD) :
    tableArr m c = concatenate S6x1024 0
      [⟨S1x1024, asRow (m ((c : Thread nD τ).loc main_arg1))⟩, ⟨S1x1024, asRow (m ((c : Thread nD τ).loc main_arg2))⟩,
       ⟨S1x1024, asRow (m ((c : Thread nD τ).loc main_arg3))⟩, ⟨S1x1024, asRow (m ((c : Thread nD τ).loc main_arg4))⟩,
       ⟨S1x1024, asRow (m ((c : Thread nD τ).loc main_arg5))⟩, ⟨S1x1024, asRow (m ((c : Thread nD τ).loc main_arg6))⟩]
      concatenates_S1x1024_S1x1024_S1x1024_S1x1024_S1x1024_S1x1024_S6x1024_d0 := by
  show StableHlo.after hostOps0 (fun b => m (c, b)) (Proc.devRef .tc main_v7) = _
  simp only [after_cons, after_nil]
  rw [nary6_result]
  repeat (first
    | rw [unary_result]
    | (rw [unary_result_ne]; rotate_left; decide)
    | (rw [reshape_result_ne]; rotate_left; decide))
  rfl

/-- The last host line reads the [16, 1, 2048] array row-major as [4096, 8]. -/
theorem result_eq (c : Dev nD) :
    Pipeline.afterTail₀ cfgs (dats m) 0 (entry0 m) [hostOps1] c main_v9
      = shapeCast S4096x8 (blocksResult (rowsArr m c) (tableArr m c)) shapeCasts_S16x1x2048_S4096x8 := by
  have e : Pipeline.withArrays (cfgs 0).spec c (entry0 m c) (fun w => (dats m 0 c).arrAt w (cfgs 0).N) (Proc.devRef .tc main_v8)
      = blocksResult (rowsArr m c) (tableArr m c) :=
    (Pipeline.withArrays_arr spec0 launch0.win.arr_inj c _ _ 2).trans (final m c)
  unfold Pipeline.afterTail₀
  simp only [List.flatten_cons, List.flatten_nil, List.append_nil]
  after_results
  rw [e]
  rfl

/-- Row 8·n + a of the reshaped input is row (n, a) of the input. -/
theorem rows_at (c : Dev nD) (r : Fin 32768) (k : Fin 1024) (n : Fin 4096) (a : Fin 8) (hr : r.val = n.val * 8 + a.val) :
    rowsArr m c (ix2 r k) = m ((c : Thread nD τ).loc main_arg0) (ix3 n a k) := by
  rw [rows_eq]
  refine shapeCast_apply _ _ (ix2 r k) (ix3 n a k) ?_
  rw [Shape.rowMajor_val_three, Shape.rowMajor_val_two]
  show (n.val * 8 + a.val) * 1024 + k.val = r.val * 1024 + k.val
  rw [hr]

/-- A stack of six [1, 1024] rows read at (j, k) is row j at (0, k). -/
theorem stack6_at {α : Type} (u : Fin 6 → (S1x1024.Idx → α))
    (h : Shape.Concatenates ([(⟨S1x1024, u 0⟩ : (s : Shape) × (s.Idx → α)), ⟨S1x1024, u 1⟩, ⟨S1x1024, u 2⟩, ⟨S1x1024, u 3⟩, ⟨S1x1024, u 4⟩, ⟨S1x1024, u 5⟩].map (·.1)) S6x1024 0)
    (j : Fin 6) (k : Fin 1024) :
    concatenate S6x1024 0 [⟨S1x1024, u 0⟩, ⟨S1x1024, u 1⟩, ⟨S1x1024, u 2⟩, ⟨S1x1024, u 3⟩, ⟨S1x1024, u 4⟩, ⟨S1x1024, u 5⟩] h (ix2 j k)
      = u j (ix2 0 k) := by
  show concatenate S6x1024 0 (List.ofFn fun n : Fin 6 => (⟨S1x1024, u n⟩ : (s : Shape) × (s.Idx → α))) h (ix2 j k) = _
  exact concatenate_ofFn_unit_apply (0 : Fin S6x1024.rank) u h rfl rfl (ix2 j k) j rfl (ix2 0 k)
    (fun b hb => match b with | ⟨0, _⟩ => absurd rfl hb | ⟨1, _⟩ => rfl)

/-- The six weight vectors, in the table's row order. -/
def weights (c : Dev nD) (j : Fin 6) : (⟨S1024, .f32⟩ : BufTy).Contents (Elt Ideal) :=
  match j with
  | ⟨0, _⟩ => m ((c : Thread nD τ).loc main_arg1)
  | ⟨1, _⟩ => m ((c : Thread nD τ).loc main_arg2)
  | ⟨2, _⟩ => m ((c : Thread nD τ).loc main_arg3)
  | ⟨3, _⟩ => m ((c : Thread nD τ).loc main_arg4)
  | ⟨4, _⟩ => m ((c : Thread nD τ).loc main_arg5)
  | ⟨5, _⟩ => m ((c : Thread nD τ).loc main_arg6)

/-- Row j of the table is the j-th weight vector. -/
theorem table_at (c : Dev nD) (j : Fin 6) (k : Fin 1024) : tableArr m c (ix2 j k) = weights m c j (ix1 k) := by
  rw [table_eq]
  refine (stack6_at (fun n => asRow (weights m c n)) _ j k).trans ?_
  exact broadcastInDim_apply _ bcast_S1024_S1x1024_1 (weights m c j) (ix2 0 k) (ix1 k) (fun a => match a with
    | ⟨0, _⟩ => by show k.val = if (1024 : Nat) = 1 then 0 else k.val; rw [if_neg (by decide)])

/-- The sum of the table's row j against row 8·n + a of the reshaped input is the weighted sum of row (n, a) of the input. -/
theorem tsum_eq (c : Dev nD) (j : Fin 6) (r : Fin 32768) (i : S4096x8.Idx) (hr : r.val = (i 0).val * 8 + (i 1).val) :
    tsum (rowsArr m c) (tableArr m c) j r = rowSum (m ((c : Thread nD τ).loc main_arg0)) (weights m c j) i := by
  unfold tsum rowSum
  refine Finset.sum_congr rfl fun k _ => ?_
  rw [table_at m c j k, rows_at m c r k (i 0) (i 1) hr]

/-- THE RESULT of the kernel's program: the specification's, of its seven arguments. -/
theorem result_spec (c : Dev nD) :
    Pipeline.afterTail₀ cfgs (dats m) 0 (entry0 m) [hostOps1] c main_v9
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [result_eq]
  funext i
  have h0 : (i 0).val < 4096 := (i 0).isLt
  have h1 : (i 1).val < 8 := (i 1).isLt
  refine (shapeCast_apply _ shapeCasts_S16x1x2048_S4096x8 i
    (ix3 (⟨((i 0).val * 8 + (i 1).val) / 2048, by omega⟩ : Fin 16) (0 : Fin 1) (⟨((i 0).val * 8 + (i 1).val) % 2048, by omega⟩ : Fin 2048)) ?_).trans ?_
  · rw [Shape.rowMajor_val_three, Shape.rowMajor_val_two]
    show (((i 0).val * 8 + (i 1).val) / 2048 * 1 + 0) * 2048 + ((i 0).val * 8 + (i 1).val) % 2048 = (i 0).val * 8 + (i 1).val
    omega
  have hrow : (rowOf (ix3 (⟨((i 0).val * 8 + (i 1).val) / 2048, by omega⟩ : Fin 16) (0 : Fin 1) (⟨((i 0).val * 8 + (i 1).val) % 2048, by omega⟩ : Fin 2048))).val
      = (i 0).val * 8 + (i 1).val := by
    show ((i 0).val * 8 + (i 1).val) / 2048 * 2048 + ((i 0).val * 8 + (i 1).val) % 2048 = _
    omega
  unfold blocksResult result
  rw [tsum_eq m c 0 _ i hrow, tsum_eq m c 1 _ i hrow, tsum_eq m c 2 _ i hrow, tsum_eq m c 3 _ i hrow, tsum_eq m c 4 _ i hrow,
    tsum_eq m c 5 _ i hrow]
  rfl

/-! ## The run, read -/

/-- Every weakly fair execution of the kernel's program terminates without a fault, with the specification's result in
    its result array and its seven arguments unchanged. -/
theorem run : θ_run defs (onTc (τ := τ) (main (F := Ideal))) ⟨m, fun _ => 0, ρ⟩ fun r => ∀ c : Dev nD,
      r.2.mem ((c.tc : Thread nD τ).loc main_v9)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v9 (Pipeline.mem_restRefs_of main_v9 (by decide) (by decide))).trans (result_spec m c),
     ((h c).2 main_arg0 (Pipeline.mem_restRefs_of main_arg0 (by decide) (by decide))).trans (arg_kept m c main_arg0 (by decide) (by decide) (by decide) (by decide) (by decide) (by decide) (by decide) (by decide) (by decide) (by decide)),
     ((h c).2 main_arg1 (Pipeline.mem_restRefs_of main_arg1 (by decide) (by decide))).trans (arg_kept m c main_arg1 (by decide) (by decide) (by decide) (by decide) (by decide) (by decide) (by decide) (by decide) (by decide) (by decide)),
     ((h c).2 main_arg2 (Pipeline.mem_restRefs_of main_arg2 (by decide) (by decide))).trans (arg_kept m c main_arg2 (by decide) (by decide) (by decide) (by decide) (by decide) (by decide) (by decide) (by decide) (by decide) (by decide)),
     ((h c).2 main_arg3 (Pipeline.mem_restRefs_of main_arg3 (by decide) (by decide))).trans (arg_kept m c main_arg3 (by decide) (by decide) (by decide) (by decide) (by decide) (by decide) (by decide) (by decide) (by decide) (by decide)),
     ((h c).2 main_arg4 (Pipeline.mem_restRefs_of main_arg4 (by decide) (by decide))).trans (arg_kept m c main_arg4 (by decide) (by decide) (by decide) (by decide) (by decide) (by decide) (by decide) (by decide) (by decide) (by decide)),
     ((h c).2 main_arg5 (Pipeline.mem_restRefs_of main_arg5 (by decide) (by decide))).trans (arg_kept m c main_arg5 (by decide) (by decide) (by decide) (by decide) (by decide) (by decide) (by decide) (by decide) (by decide) (by decide)),
     ((h c).2 main_arg6 (Pipeline.mem_restRefs_of main_arg6 (by decide) (by decide))).trans (arg_kept m c main_arg6 (by decide) (by decide) (by decide) (by decide) (by decide) (by decide) (by decide) (by decide) (by decide) (by decide))⟩)
    (run_main m ρ)

end Cert.KernelIdeal.Arr

end
-- ==== Proof.RefValue.lean ====
/-
  The reference at the extended reals is the specification.

  The reference multiplies the input, entry by entry, by a weight vector spread along the last axis and sums the last
  axis from zero: at (n, a) that is 0 + ∑ k, x (n, a, k) · w k, the weighted sum of row (n, a) (the product commutes, the
  zero is the sum's unit). It does so six times, for the six weight vectors, and applies the reward to the six sums entry
  by entry, in the order the specification writes it.
-/
import proofs.«115351_g67972152426924_cont_9to1_m_285_3_alg».proof.Proof.Gen.ReferenceIdeal.Read
import proofs.«115351_g67972152426924_cont_9to1_m_285_3_alg».proof.Proof.Reward
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.Reward
open Idealize.ShloMosaic Idealize.ShloMosaic.ValueIdx

/-- The first sum stage at (n, a) is the weighted sum of row (n, a). -/
theorem sum_stage (x0 : (⟨S4096x8x1024, .f32⟩ : BufTy).Contents (Elt Ideal)) (x1 : (⟨S1024, .f32⟩ : BufTy).Contents (Elt Ideal)) (i : S4096x8.Idx) :
    val_main_v3 (F := Ideal) x0 x1 i = rowSum x0 x1 i := by
  rw [val_main_v3_apply, val_main_cst_apply]
  show Ideal.ofBits .f32 0x00000000#32 + _ = _
  rw [Ideal.ofBits_zero_f32, zero_add]
  unfold rowSum
  refine Finset.sum_congr rfl fun k _ => ?_
  rw [val_main_v2_apply, val_main_v1_apply, val_main_v0_apply]
  have ex : idx_main_v3 i k = ix3 (i 0) (i 1) k :=
    funext fun a => by match a with | ⟨0, _⟩ => rfl | ⟨1, _⟩ => rfl | ⟨2, _⟩ => rfl
  have ew : idx_main_v0 (idx_main_v1 (idx_main_v3 i k)) = ix1 k :=
    funext fun a => by match a with | ⟨0, _⟩ => rfl
  rw [ex, ew]
  exact mul_comm _ _

/-- The other five sum stages are the same function of the input and their own weight vector. -/
theorem sum_stage7 (x0 : (⟨S4096x8x1024, .f32⟩ : BufTy).Contents (Elt Ideal)) (w : (⟨S1024, .f32⟩ : BufTy).Contents (Elt Ideal)) (i : S4096x8.Idx) :
    val_main_v7 (F := Ideal) x0 w i = rowSum x0 w i := sum_stage x0 w i
theorem sum_stage11 (x0 : (⟨S4096x8x1024, .f32⟩ : BufTy).Contents (Elt Ideal)) (w : (⟨S1024, .f32⟩ : BufTy).Contents (Elt Ideal)) (i : S4096x8.Idx) :
    val_main_v11 (F := Ideal) x0 w i = rowSum x0 w i := sum_stage x0 w i
theorem sum_stage15 (x0 : (⟨S4096x8x1024, .f32⟩ : BufTy).Contents (Elt Ideal)) (w : (⟨S1024, .f32⟩ : BufTy).Contents (Elt Ideal)) (i : S4096x8.Idx) :
    val_main_v15 (F := Ideal) x0 w i = rowSum x0 w i := sum_stage x0 w i
theorem sum_stage19 (x0 : (⟨S4096x8x1024, .f32⟩ : BufTy).Contents (Elt Ideal)) (w : (⟨S1024, .f32⟩ : BufTy).Contents (Elt Ideal)) (i : S4096x8.Idx) :
    val_main_v19 (F := Ideal) x0 w i = rowSum x0 w i := sum_stage x0 w i
theorem sum_stage23 (x0 : (⟨S4096x8x1024, .f32⟩ : BufTy).Contents (Elt Ideal)) (w : (⟨S1024, .f32⟩ : BufTy).Contents (Elt Ideal)) (i : S4096x8.Idx) :
    val_main_v23 (F := Ideal) x0 w i = rowSum x0 w i := sum_stage x0 w i

/-- The reference's result is the specification's. -/
theorem last_stage (x0 : (⟨S4096x8x1024, .f32⟩ : BufTy).Contents (Elt Ideal)) (x1 x2 x3 x4 x5 x6 : (⟨S1024, .f32⟩ : BufTy).Contents (Elt Ideal)) :
    val_main_v42 (F := Ideal) x0 x1 x2 x3 x4 x5 x6 = result x0 x1 x2 x3 x4 x5 x6 := by
  funext i
  simp only [val_main_v42_apply, val_main_v41_apply, val_main_v40_apply, val_main_v39_apply, val_main_v38_apply, val_main_cst_6_apply,
    val_main_v37_apply, val_main_v36_apply, val_main_cst_5_apply, val_main_v35_apply, val_main_v34_apply, val_main_v33_apply,
    val_main_v32_apply, val_main_v31_apply, val_main_v30_apply, val_main_v29_apply, val_main_v28_apply, val_main_v27_apply,
    val_main_v26_apply, val_main_v25_apply, val_main_v24_apply,
    sum_stage, sum_stage7, sum_stage11, sum_stage15, sum_stage19, sum_stage23]
  rfl

end Cert.ReferenceIdeal.RefValue

end
-- ==== Proof.lean ====
/-
  Six weighted sums of every row of a [4096, 8, 1024] input, and a reward of the six sums, computed two ways.

  The kernel reshapes the input to [32768, 1024], stacks the six weight vectors into a [6, 1024] table, and in each of 16
  pipelined steps multiplies the table into 2048 transposed rows on the matrix unit — entry (j, c) of the product is
  ∑ k, table (j, k) · row c (k) — then applies the reward lane by lane and writes 2048 results; a last reshape gives
  [4096, 8]. The reference multiplies the input by each weight vector entry by entry and sums the last axis from zero:
  0 + ∑ k, x (n, a, k) · w k. On the extended reals the two sums are one (the product commutes, zero is the sum's unit, and
  the reshapes keep the row-major position: row 8·n + a of the reshaped input is row (n, a)), and both programs apply the
  same reward — the same operations in the same order on the same two float words ½ and 2 — so the results agree entry
  by entry. No finiteness of the inputs is used. Each program runs to its end without a fault and leaves its seven
  arguments as they were; the idealization rewrote nothing, so there is nothing to preserve.
-/
import proofs.«115351_g67972152426924_cont_9to1_m_285_3_alg».proof.Defs
import proofs.«115351_g67972152426924_cont_9to1_m_285_3_alg».proof.Proof.Gen.Kernel
import proofs.«115351_g67972152426924_cont_9to1_m_285_3_alg».proof.Proof.Gen.KernelIdeal
import proofs.«115351_g67972152426924_cont_9to1_m_285_3_alg».proof.Proof.Gen.ReferenceIdeal
import proofs.«115351_g67972152426924_cont_9to1_m_285_3_alg».proof.Proof.Gen.Pre_finite_inputs
import proofs.«115351_g67972152426924_cont_9to1_m_285_3_alg».proof.Proof.Gen.ReferenceIdeal.Run
import proofs.«115351_g67972152426924_cont_9to1_m_285_3_alg».proof.Proof.Gen.ReferenceIdeal.Read
import proofs.«115351_g67972152426924_cont_9to1_m_285_3_alg».proof.Proof.BitsFrame
import proofs.«115351_g67972152426924_cont_9to1_m_285_3_alg».proof.Proof.IdealFrame
import proofs.«115351_g67972152426924_cont_9to1_m_285_3_alg».proof.Proof.IdealValue
import proofs.«115351_g67972152426924_cont_9to1_m_285_3_alg».proof.Proof.RefValue
import Idealize.ShloMosaic.Adequacy
import Idealize.ShloMosaic.Init

noncomputable section

namespace Cert.Proof

open Idealize.ShloMosaic Idealize.SL.Sem

/-- The kernel's program as printed runs to its end and keeps its arguments. -/
theorem frame_kernel : Cert.frame_Kernel := fun m ρ _ => Cert.Kernel.Frame.frame m ρ

/-- So does its idealization. -/
theorem frame_ideal : Cert.frame_KernelIdeal := fun m ρ _ => Cert.KernelIdeal.Frame.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the specification's result of those
    arguments: the kernel's by its frame run read block by block, the reference's by its run read stage by stage. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v42_eq, Cert.ReferenceIdeal.RefValue.last_stage, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
